-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S512x256 : Shape := ⟨2, ![512, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  main_v18

def fn {F : FTy → Type} [FloatOps F] (main_arg0 : FVec F S10000x256 .f32) (main_arg1 : FVec F S10000x10000 .f32) (main_arg2 : FVec F S256x256 .f32) (main_arg3 : FVec F S512x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S512x256 : Shape := ⟨2, ![512, 256]⟩
abbrev S400x10000 : Shape := ⟨2, ![400, 10000]⟩
abbrev S400x256 : Shape := ⟨2, ![400, 256]⟩
abbrev S400 : Shape := ⟨1, ![400]⟩
abbrev S400x1 : Shape := ⟨2, ![400, 1]⟩

abbrev nBuf : Space → Nat
  | .hbm => 6
  | .vmem => 7
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S512x256, .f32⟩
  | .hbm, ⟨4, _⟩ => ⟨S10000x256, .bf16⟩
  | .hbm, ⟨5, _⟩ => ⟨S10000x256, .f32⟩
  | .local _ .vmem, ⟨0, _⟩ => ⟨S400x10000, .f32⟩
  | .local _ .vmem, ⟨1, _⟩ => ⟨S400x10000, .f32⟩
  | .local _ .vmem, ⟨2, _⟩ => ⟨S10000x256, .bf16⟩
  | .local _ .vmem, ⟨3, _⟩ => ⟨S256x256, .f32⟩
  | .local _ .vmem, ⟨4, _⟩ => ⟨S512x256, .f32⟩
  | .local _ .vmem, ⟨5, _⟩ => ⟨S400x256, .f32⟩
  | .local _ .vmem, ⟨6, _⟩ => ⟨S400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v7 : BitVec 32 := Scalar.muli arg0 c400_i32
  let v8 : Index := Scalar.indexCast v7
  let c0_6 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x256_S256x256_0_0 : ∀ a, (![0, 0] : Fin 2 → Nat) a + S256x256.size a ≤ S256x256.size a
  h_S256x256 : 0 < S256x256.numel
  h_S400x256 : 0 < S400x256.numel
  shapeCasts_S400x256_S400x256 : S400x256.ShapeCasts S400x256
  inb_S512x256_S256x256_0_0 : ∀ a, (![0, 0] : Fin 2 → Nat) a + S256x256.size a ≤ S512x256.size a
  inb_S512x256_S256x256_256_0 : ∀ a, (![256, 0] : Fin 2 → Nat) a + S256x256.size a ≤ S512x256.size a
  reduces_S400x256_S400 : S400x256.Reduces [1] S400
  shapeCasts_S400_S400x1 : S400.ShapeCasts S400x1
  broadcasts_S400x1_S400x256 : S400x1.Broadcasts S400x256
  inb_S400x256_S400x256_0_0 : ∀ a, (![0, 0] : Fin 2 → Nat) a + S400x256.size a ≤ S400x256.size a
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  hrank0 : 0 < grid0.rank
  k0_off1_inb : ∀ i : grid0.Coords, ∀ a, (k0_off1 i) a + S400x256.size a ≤ S10000x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .bf16 = 32 ∨ (Rect.block (s := S10000x256) S10000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x256.size a ≤ S10000x256.size a
  hwx0_4 : ∀ i : grid0.Coords, EltTy.bits .f32 = 32 ∨ (Rect.block (s := S10000x256) S400x256.size (cc0_transform_4 i) (hinb0_4 i)).WholeWords (EltTy.packing .f32)

variable [Facts₀]

def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S512x256 : Shape := ⟨2, ![512, 256]⟩
abbrev S10000x512 : Shape := ⟨2, ![10000, 512]⟩
abbrev S_ : Shape := ⟨0, ![]⟩
abbrev S10000 : Shape := ⟨1, ![10000]⟩
abbrev S10000x1 : Shape := ⟨2, ![10000, 1]⟩

abbrev nBuf : Space → Nat
  | .hbm => 21
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S512x256, .f32⟩
  | .hbm, ⟨4, _⟩ => ⟨S10000x256, .f32⟩
  | .hbm, ⟨5, _⟩ => ⟨S10000x256, .f32⟩
  | .hbm, ⟨6, _⟩ => ⟨S10000x512, .f32⟩
  | .hbm, ⟨7, _⟩ => ⟨S10000x256, .f32⟩
  | .hbm, ⟨8, _⟩ => ⟨S_, .f32⟩
  | .hbm, ⟨9, _⟩ => ⟨S10000x256, .f32⟩
  | .hbm, ⟨10, _⟩ => ⟨S10000x256, .f32⟩
  | .hbm, ⟨11, _⟩ => ⟨S10000x256, .f32⟩
  | .hbm, ⟨12, _⟩ => ⟨S_, .f32⟩
  | .hbm, ⟨13, _⟩ => ⟨S10000, .f32⟩
  | .hbm, ⟨14, _⟩ => ⟨S10000x1, .f32⟩
  | .hbm, ⟨15, _⟩ => ⟨S10000x1, .f32⟩
  | .hbm, ⟨16, _⟩ => ⟨S_, .f32⟩
  | .hbm, ⟨17, _⟩ => ⟨S10000x1, .f32⟩
  | .hbm, ⟨18, _⟩ => ⟨S10000x1, .f32⟩
  | .hbm, ⟨19, _⟩ => ⟨S10000x256, .f32⟩
  | .hbm, ⟨20, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  concatenates_S10000x256_S10000x256_S10000x512_d1 : Shape.Concatenates [S10000x256, S10000x256] S10000x512 1
  bcast_S_S10000x256 : S_.BroadcastsInDim S10000x256 (![] : Fin 0 → Fin S10000x256.rank)
  reducesTo_S10000x256_S10000_d1 : S10000x256.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  dot_S10000x10000_S10000x256_S10000x256_1_0_0_1_n_n_wf : DotDims.WF S10000x10000 S10000x256 S10000x256 [1] [0] [0] [1] [] []
  dot_S10000x256_S256x256_S10000x256_1_0_0_1_n_n_wf : DotDims.WF S10000x256 S256x256 S10000x256 [1] [0] [0] [1] [] []
  dot_S10000x512_S512x256_S10000x256_1_0_0_1_n_n_wf : DotDims.WF S10000x512 S512x256 S10000x256 [1] [0] [0] [1] [] []

variable [Facts₀]

def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.SumSplit.lean ====
/-
  Splitting a sum over `Fin (a + b)` into the sum over the first `a` indices and the sum over the last `b`:
  the law by which a product with a matrix whose rows are stacked is the sum of the two products with the
  stacked parts. It holds in every additive commutative monoid, so on the extended reals with no finiteness
  assumption.
-/
import Mathlib.Algebra.BigOperators.Fin

namespace Cert.GraphLayer

/-- A sum over `Fin 512` is the sum over its first 256 indices plus the sum over its last 256. -/
theorem sum_fin512_split {M : Type*} [AddCommMonoid M] (f : Fin 512 → M) :
    (∑ k : Fin 512, f k) = (∑ k : Fin 256, f (Fin.castAdd 256 k)) + ∑ k : Fin 256, f (Fin.natAdd 256 k) :=
  Fin.sum_univ_add (a := 256) (b := 256) f

end Cert.GraphLayer
-- ==== Proof.LayerSpec.lean ====
/-
  One graph-convolution layer with a skip connection and row normalisation, over the extended reals, index by index.

  For `R` destination rows: `sup` is the `R × 10000` slab of the (dense) adjacency, `feat` the `10000 × 256` node
  features, `aggw` the `256 × 256` aggregation weight, `own` the `R × 256` features of the destination rows
  themselves, and `wTop`, `wBot` the two `256 × 256` halves of the output weight. Row `r` of the result is

      lin r j  = ∑ₖ (∑ₖ' (∑ₙ sup r n · feat n k') · aggw k' k) · wTop k j  +  ∑ₖ own r k · wBot k j
      act r j  = max (lin r j) 0
      out r j  = act r j / max (√(∑ⱼ (act r j)²)) ε

  with `0` and `ε` the two float words both programs carry. Row `r` reads `sup` and `own` only on row `r`
  (`out_congr_row`): that is why the array can be computed slab by slab.

  Stacking `wTop` over `wBot` into one `512 × 256` weight and putting the aggregated features beside the rows' own
  features is the same linear map (`lin_eq_stacked`): a sum over `Fin 512` splits into its two halves, in any
  additive commutative monoid, so on the extended reals without any finiteness assumption.
-/
import Idealize.ShloMosaic.PureOps.Ideal
import Idealize.ShloMosaic.Lib.ValueIdx
import proofs.«139050_g76141180224220_cont_sun_c4_842_2_alg».proof.Proof.SumSplit

noncomputable section

namespace Cert.GraphLayer

open Idealize.ShloMosaic Idealize.ShloMosaic.ValueIdx

/-- An `a × b` array of extended reals, by index. -/
abbrev Arr (a b : Nat) : Type := (⟨2, ![a, b]⟩ : Shape).Idx → EReal

section Rows
variable {R : Nat}

/-- Neighbour aggregation: row `r` of `sup · feat`. -/
def agg (sup : Arr R 10000) (feat : Arr 10000 256) (r : Fin R) (k : Fin 256) : EReal :=
  ∑ n : Fin 10000, sup (ix2 r n) * feat (ix2 n k)

/-- The aggregated features through the aggregation weight: row `r` of `(sup · feat) · aggw`. -/
def proj (sup : Arr R 10000) (feat : Arr 10000 256) (aggw : Arr 256 256) (r : Fin R) (k : Fin 256) : EReal :=
  ∑ k' : Fin 256, agg sup feat r k' * aggw (ix2 k' k)

/-- The layer before its activation: the projected aggregate through the top half of the output weight plus the
    row's own features through the bottom half. -/
def lin (sup : Arr R 10000) (feat : Arr 10000 256) (aggw : Arr 256 256) (own : Arr R 256) (wTop wBot : Arr 256 256)
    (r : Fin R) (j : Fin 256) : EReal :=
  (∑ k : Fin 256, proj sup feat aggw r k * wTop (ix2 k j)) + ∑ k : Fin 256, own (ix2 r k) * wBot (ix2 k j)

/-- After the rectifier. -/
def act (sup : Arr R 10000) (feat : Arr 10000 256) (aggw : Arr 256 256) (own : Arr R 256) (wTop wBot : Arr 256 256)
    (r : Fin R) (j : Fin 256) : EReal :=
  max (lin sup feat aggw own wTop wBot r j) (Ideal.ofBits .f32 0x00000000#32)

/-- The squared length of row `r`. -/
def sqLen (sup : Arr R 10000) (feat : Arr 10000 256) (aggw : Arr 256 256) (own : Arr R 256) (wTop wBot : Arr 256 256)
    (r : Fin R) : EReal :=
  ∑ j : Fin 256, act sup feat aggw own wTop wBot r j * act sup feat aggw own wTop wBot r j

/-- The row divided by its length, the length kept above the floor `ε`. -/
def out (sup : Arr R 10000) (feat : Arr 10000 256) (aggw : Arr 256 256) (own : Arr R 256) (wTop wBot : Arr 256 256)
    (r : Fin R) (j : Fin 256) : EReal :=
  Ideal.div (act sup feat aggw own wTop wBot r j)
    (max (Ideal.sqrt (sqLen sup feat aggw own wTop wBot r)) (Ideal.ofBits .f32 0x2B8CBCCC#32))

/-- The result as an `R × 256` array. -/
def outArr (sup : Arr R 10000) (feat : Arr 10000 256) (aggw : Arr 256 256) (own : Arr R 256) (wTop wBot : Arr 256 256) :
    Arr R 256 :=
  fun i => out sup feat aggw own wTop wBot ⟨(i 0).val, (i 0).isLt⟩ ⟨(i 1).val, (i 1).isLt⟩

theorem outArr_ix2 (sup : Arr R 10000) (feat : Arr 10000 256) (aggw : Arr 256 256) (own : Arr R 256) (wTop wBot : Arr 256 256)
    (r : Fin R) (j : Fin 256) : outArr sup feat aggw own wTop wBot (ix2 r j) = out sup feat aggw own wTop wBot r j := rfl

end Rows

/-- Row `r` of the result reads the adjacency slab and the rows' own features on row `r` only: two slabs (of any
    heights) that agree there give the same row. -/
theorem out_congr_row {R R' : Nat} (sup : Arr R 10000) (sup' : Arr R' 10000) (feat : Arr 10000 256) (aggw : Arr 256 256)
    (own : Arr R 256) (own' : Arr R' 256) (wTop wBot : Arr 256 256) (r : Fin R) (r' : Fin R')
    (hs : ∀ n : Fin 10000, sup (ix2 r n) = sup' (ix2 r' n)) (ho : ∀ k : Fin 256, own (ix2 r k) = own' (ix2 r' k))
    (j : Fin 256) :
    out sup feat aggw own wTop wBot r j = out sup' feat aggw own' wTop wBot r' j := by
  have hl : ∀ j : Fin 256, lin sup feat aggw own wTop wBot r j = lin sup' feat aggw own' wTop wBot r' j := by
    intro j
    unfold lin proj agg
    simp only [hs, ho]
  have ha : ∀ j : Fin 256, act sup feat aggw own wTop wBot r j = act sup' feat aggw own' wTop wBot r' j := by
    intro j
    unfold act
    rw [hl j]
  unfold out sqLen
  simp only [ha]

/-- The same with every other operand allowed to be spelt differently, as long as it is the same array. -/
theorem out_congr {R R' : Nat} (sup : Arr R 10000) (sup' : Arr R' 10000) (feat feat' : Arr 10000 256) (aggw aggw' : Arr 256 256)
    (own : Arr R 256) (own' : Arr R' 256) (wTop wTop' wBot wBot' : Arr 256 256) (r : Fin R) (r' : Fin R')
    (hs : ∀ n : Fin 10000, sup (ix2 r n) = sup' (ix2 r' n)) (hf : feat = feat') (ha : aggw = aggw')
    (ho : ∀ k : Fin 256, own (ix2 r k) = own' (ix2 r' k)) (ht : wTop = wTop') (hb : wBot = wBot') (j : Fin 256) :
    out sup feat aggw own wTop wBot r j = out sup' feat' aggw' own' wTop' wBot' r' j := by
  subst hf ha ht hb
  exact out_congr_row sup sup' feat aggw own own' wTop wBot r r' hs ho j

/-- The top 256 rows of a `512 × 256` weight. -/
def topRows (w : Arr 512 256) : Arr 256 256 :=
  fun y => w (ix2 (Fin.castAdd 256 (⟨(y 0).val, (y 0).isLt⟩ : Fin 256)) ⟨(y 1).val, (y 1).isLt⟩)

/-- Its bottom 256 rows. -/
def botRows (w : Arr 512 256) : Arr 256 256 :=
  fun y => w (ix2 (Fin.natAdd 256 (⟨(y 0).val, (y 0).isLt⟩ : Fin 256)) ⟨(y 1).val, (y 1).isLt⟩)

/-- THE LAYER over all 10000 nodes: the features serve both as what is aggregated and as the rows' own features, and
    the output weight is given stacked. -/
def layer (feat : Arr 10000 256) (sup : Arr 10000 10000) (aggw : Arr 256 256) (catw : Arr 512 256) : Arr 10000 256 :=
  outArr (R := 10000) sup feat aggw feat (topRows catw) (botRows catw)

/-- The layer's linear part, computed the stacked way: the row `(proj r ·, own r ·)` of length 512 through the whole
    `512 × 256` weight. -/
theorem lin_eq_stacked {R : Nat} (sup : Arr R 10000) (feat : Arr 10000 256) (aggw : Arr 256 256) (own : Arr R 256)
    (w : Arr 512 256) (cat : Fin 512 → EReal) (r : Fin R) (j : Fin 256)
    (hl : ∀ k : Fin 256, cat (Fin.castAdd 256 k) = proj sup feat aggw r k)
    (hr : ∀ k : Fin 256, cat (Fin.natAdd 256 k) = own (ix2 r k)) :
    (∑ k : Fin 512, cat k * w (ix2 k j)) = lin sup feat aggw own (topRows w) (botRows w) r j := by
  rw [sum_fin512_split]
  unfold lin topRows botRows
  simp only [hl, hr]

end Cert.GraphLayer

end
-- ==== Proof.KernelBlock.lean ====
/-
  What the kernel body computes on one slab of 400 destination rows, at the ideal values: its one stored value, as a
  function of the slab of the adjacency `v0`, the resident features `v2`, the aggregation weight `v5`, the slab's own
  feature rows `v9` and the two halves `v12`, `v14` of the output weight, is the layer of `LayerSpec.lean` over
  `R = 400` rows.

  The body is four matrix products into zero accumulators (each a plain sum over the contracted index at the ideal
  values), a sum of two of them, a rectifier, a row sum of squares, a square root kept above a floor, and a quotient;
  the changes of float format in between are the identity on extended reals. The staged definitions below name the
  intermediate values in the body's own order; the stored value is their composition by unfolding.
-/
import proofs.«139050_g76141180224220_cont_sun_c4_842_2_alg».proof.Proof.Gen.KernelIdeal.Skeleton
import proofs.«139050_g76141180224220_cont_sun_c4_842_2_alg».proof.Proof.LayerSpec
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx
open Cert.GraphLayer (Arr agg proj lin act sqLen out outArr outArr_ix2)

/-! ## The two kinds of matrix product in the body, read at an index -/

/-- The slab times the features: `[400, 10000] · [10000, 256]`. -/
abbrev dBig : DotDims S400x10000 S10000x256 S400x256 := dot_S400x10000_S10000x256_S400x256_1_0_0_1_n_n
/-- A `[400, 256]` value times a square weight: `[400, 256] · [256, 256]`. -/
abbrev dSq : DotDims S400x256 S256x256 S400x256 := dot_S400x256_S256x256_S400x256_1_0_0_1_n_n

theorem lhs_big_0 (i : S400x256.Idx) (q : dot_S400x10000_S10000x256_S400x256_1_0_0_1_n_n.contr.Idx) :
    (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
theorem lhs_big_1 (i : S400x256.Idx) (q : dot_S400x10000_S10000x256_S400x256_1_0_0_1_n_n.contr.Idx) :
    (dot_S400x10000_S10000x256_S400x256_1_0_0_1_n_n.lhsIdx i q 1).val = (q ⟨0, by decide⟩).val :=
  dot_S400x10000_S10000x256_S400x256_1_0_0_1_n_n.lhsIdx_val_of_single rfl i q
theorem rhs_big_0 (i : S400x256.Idx) (q : dot_S400x10000_S10000x256_S400x256_1_0_0_1_n_n.contr.Idx) :
    (dot_S400x10000_S10000x256_S400x256_1_0_0_1_n_n.rhsIdx i q 0).val = (q ⟨0, by decide⟩).val :=
  dot_S400x10000_S10000x256_S400x256_1_0_0_1_n_n.rhsIdx_val_of_single rfl i q
theorem rhs_big_1 (i : S400x256.Idx) (q : dot_S400x10000_S10000x256_S400x256_1_0_0_1_n_n.contr.Idx) :
    (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

/-- The slab product into a zero accumulator, at row `p` and column `q`: the sum over the 10000 nodes. -/
theorem matmul_big_apply {φ₁ φ₂ : FTy} (l : FVec Ideal S400x10000 φ₁) (r : FVec Ideal S10000x256 φ₂) (p : Fin 400) (q : Fin 256) :
    matmul dot_S400x10000_S10000x256_S400x256_1_0_0_1_n_n none l r (constant S400x256 .f32 0x00000000#32) (ix2 p q)
      = ∑ n : Fin 10000, l (ix2 p n) * r (ix2 n q) := by
  simp only [matmul]
  rw [Ideal.matmul_constant_zero_apply, ← Equiv.sum_comp (contrEquiv1 dot_S400x10000_S10000x256_S400x256_1_0_0_1_n_n 10000 rfl rfl).symm]
  refine Finset.sum_congr rfl fun k _ => ?_
  have hk := contrEquiv1_symm_val dot_S400x10000_S10000x256_S400x256_1_0_0_1_n_n 10000 rfl rfl k
  have el : dot_S400x10000_S10000x256_S400x256_1_0_0_1_n_n.lhsIdx (ix2 p q) ((contrEquiv1 dot_S400x10000_S10000x256_S400x256_1_0_0_1_n_n 10000 rfl rfl).symm k) = ix2 p k := funext fun a => Fin.ext (by
    match a with
    | ⟨0, _⟩ => exact lhs_big_0 _ _
    | ⟨1, _⟩ => exact (lhs_big_1 _ _).trans hk)
  have er : dot_S400x10000_S10000x256_S400x256_1_0_0_1_n_n.rhsIdx (ix2 p q) ((contrEquiv1 dot_S400x10000_S10000x256_S400x256_1_0_0_1_n_n 10000 rfl rfl).symm k) = ix2 k q := funext fun a => Fin.ext (by
    match a with
    | ⟨0, _⟩ => exact (rhs_big_0 _ _).trans hk
    | ⟨1, _⟩ => exact rhs_big_1 _ _)
  rw [el, er]

theorem lhs_sq_0 (i : S400x256.Idx) (q : dot_S400x256_S256x256_S400x256_1_0_0_1_n_n.contr.Idx) :
    (dot_S400x256_S256x256_S400x256_1_0_0_1_n_n.lhsIdx i q 0).val = (i 0).val := by
  unfold DotDims.lhsIdx
  rw [dif_neg (show ¬(0 : Fin S400x256.rank) ∈ dot_S400x256_S256x256_S400x256_1_0_0_1_n_n.lhsBatch by decide), dif_pos (show (0 : Fin S400x256.rank) ∈ dot_S400x256_S256x256_S400x256_1_0_0_1_n_n.lhsNonContracting by decide)]
  rfl
theorem lhs_sq_1 (i : S400x256.Idx) (q : dot_S400x256_S256x256_S400x256_1_0_0_1_n_n.contr.Idx) :
    (dot_S400x256_S256x256_S400x256_1_0_0_1_n_n.lhsIdx i q 1).val = (q ⟨0, by decide⟩).val :=
  dot_S400x256_S256x256_S400x256_1_0_0_1_n_n.lhsIdx_val_of_single rfl i q
theorem rhs_sq_0 (i : S400x256.Idx) (q : dot_S400x256_S256x256_S400x256_1_0_0_1_n_n.contr.Idx) :
    (dot_S400x256_S256x256_S400x256_1_0_0_1_n_n.rhsIdx i q 0).val = (q ⟨0, by decide⟩).val :=
  dot_S400x256_S256x256_S400x256_1_0_0_1_n_n.rhsIdx_val_of_single rfl i q
theorem rhs_sq_1 (i : S400x256.Idx) (q : dot_S400x256_S256x256_S400x256_1_0_0_1_n_n.contr.Idx) :
    (dot_S400x256_S256x256_S400x256_1_0_0_1_n_n.rhsIdx i q 1).val = (i 1).val := by
  unfold DotDims.rhsIdx
  rw [dif_neg (show ¬(1 : Fin S256x256.rank) ∈ dot_S400x256_S256x256_S400x256_1_0_0_1_n_n.rhsBatch by decide), dif_pos (show (1 : Fin S256x256.rank) ∈ dot_S400x256_S256x256_S400x256_1_0_0_1_n_n.rhsNonContracting by decide)]
  rfl

/-- A product with a square weight into a zero accumulator, at row `p` and column `q`: the sum over 256 features. -/
theorem matmul_sq_apply {φ₁ φ₂ : FTy} (l : FVec Ideal S400x256 φ₁) (r : FVec Ideal S256x256 φ₂) (p : Fin 400) (q : Fin 256) :
    matmul dot_S400x256_S256x256_S400x256_1_0_0_1_n_n none l r (constant S400x256 .f32 0x00000000#32) (ix2 p q)
      = ∑ k : Fin 256, l (ix2 p k) * r (ix2 k q) := by
  simp only [matmul]
  rw [Ideal.matmul_constant_zero_apply, ← Equiv.sum_comp (contrEquiv1 dot_S400x256_S256x256_S400x256_1_0_0_1_n_n 256 rfl rfl).symm]
  refine Finset.sum_congr rfl fun k _ => ?_
  have hk := contrEquiv1_symm_val dot_S400x256_S256x256_S400x256_1_0_0_1_n_n 256 rfl rfl k
  have el : dot_S400x256_S256x256_S400x256_1_0_0_1_n_n.lhsIdx (ix2 p q) ((contrEquiv1 dot_S400x256_S256x256_S400x256_1_0_0_1_n_n 256 rfl rfl).symm k) = ix2 p k := funext fun a => Fin.ext (by
    match a with
    | ⟨0, _⟩ => exact lhs_sq_0 _ _
    | ⟨1, _⟩ => exact (lhs_sq_1 _ _).trans hk)
  have er : dot_S400x256_S256x256_S400x256_1_0_0_1_n_n.rhsIdx (ix2 p q) ((contrEquiv1 dot_S400x256_S256x256_S400x256_1_0_0_1_n_n 256 rfl rfl).symm k) = ix2 k q := funext fun a => Fin.ext (by
    match a with
    | ⟨0, _⟩ => exact (rhs_sq_0 _ _).trans hk
    | ⟨1, _⟩ => exact rhs_sq_1 _ _)
  rw [el, er]

/-! ## The body's intermediate values, in its own order -/

section Stages
variable {F : FTy → Type} [FloatOps F]
variable (v0 : Vec F S400x10000 .f32) (v2 : Vec F S10000x256 .bf16) (v5 : Vec F S256x256 .f32)
  (v9 : Vec F S400x256 .bf16) (v12 v14 : Vec F S256x256 .f32)

/-- The slab of the adjacency times the features. -/
def sAgg : FVec F S400x256 .f32 :=
  matmul dot_S400x10000_S10000x256_S400x256_1_0_0_1_n_n none (truncf .bf16 v0 bitsLt_bf16_f32)
    (shapeCast S10000x256 v2 shapeCasts_S10000x256_S10000x256) (constant S400x256 .f32 0x00000000#32)

/-- … times the aggregation weight. -/
def sProj : FVec F S400x256 .f32 :=
  matmul dot_S400x256_S256x256_S400x256_1_0_0_1_n_n none (sAgg v0 v2) v5 (constant S400x256 .f32 0x00000000#32)

/-- The two products with the halves of the output weight, added. -/
def sLin : FVec F S400x256 .f32 :=
  addf (matmul dot_S400x256_S256x256_S400x256_1_0_0_1_n_n none (sProj v0 v2 v5) v12 (constant S400x256 .f32 0x00000000#32))
    (matmul dot_S400x256_S256x256_S400x256_1_0_0_1_n_n none
      (extf .f32 (shapeCast S400x256 v9 shapeCasts_S400x256_S400x256) bitsLt_bf16_f32) v14 (constant S400x256 .f32 0x00000000#32))

/-- Rectified. -/
def sAct : FVec F S400x256 .f32 :=
  maximumf (sLin v0 v2 v5 v9 v12 v14) (broadcast S400x256 (Scalar.ofBits .f32 0x00000000#32))

/-- Each row's length, kept above the floor, as a column. -/
def sNorm : FVec F S400x1 .f32 :=
  maximumf (sqrt (shapeCast S400x1
      (multiReduction .add [1] S400 (mulf (sAct v0 v2 v5 v9 v12 v14) (sAct v0 v2 v5 v9 v12 v14)) 0x00000000#32 reduces_S400x256_S400 (.inl rfl) rfl)
      shapeCasts_S400_S400x1))
    (broadcast S400x1 (Scalar.ofBits .f32 0x2B8CBCCC#32))

/-- The stored value is the rectified slab divided, row by row, by that column. -/
theorem pay_eq_stages : k0_pay1 v0 v2 v5 v9 v12 v14
    = divf (sAct v0 v2 v5 v9 v12 v14) (broadcastTo S400x256 (sNorm v0 v2 v5 v9 v12 v14) broadcasts_S400x1_S400x256) := rfl

end Stages

section AtIdeal
variable (v0 : Vec Ideal S400x10000 .f32) (v2 : Vec Ideal S10000x256 .bf16) (v5 : Vec Ideal S256x256 .f32)
  (v9 : Vec Ideal S400x256 .bf16) (v12 v14 : Vec Ideal S256x256 .f32)

theorem sAgg_apply (p : Fin 400) (k : Fin 256) : sAgg (F := Ideal) v0 v2 (ix2 p k) = agg v0 v2 p k := by
  unfold sAgg agg
  rw [matmul_big_apply, shapeCast_self]
  rfl

theorem sProj_apply (p : Fin 400) (k : Fin 256) : sProj (F := Ideal) v0 v2 v5 (ix2 p k) = proj v0 v2 v5 p k := by
  unfold sProj proj
  rw [matmul_sq_apply]
  simp only [sAgg_apply]

theorem sLin_apply (p : Fin 400) (j : Fin 256) : sLin (F := Ideal) v0 v2 v5 v9 v12 v14 (ix2 p j) = lin v0 v2 v5 v9 v12 v14 p j := by
  unfold sLin lin
  rw [addf_apply, matmul_sq_apply, matmul_sq_apply, shapeCast_self]
  simp only [sProj_apply]
  rfl

theorem sAct_apply (p : Fin 400) (j : Fin 256) : sAct (F := Ideal) v0 v2 v5 v9 v12 v14 (ix2 p j) = act v0 v2 v5 v9 v12 v14 p j := by
  unfold sAct act
  rw [maximumf_apply, sLin_apply]
  rfl

/-- The column of row lengths: at row `p` the square root of the row's squared length, kept above the floor. -/
theorem sNorm_apply (p : Fin 400) (z : Fin 1) : sNorm (F := Ideal) v0 v2 v5 v9 v12 v14 (ix2 p z)
    = max (Ideal.sqrt (sqLen v0 v2 v5 v9 v12 v14 p)) (Ideal.ofBits .f32 0x2B8CBCCC#32) := by
  unfold sNorm
  rw [maximumf_apply]
  show max (Ideal.sqrt (shapeCast S400x1 _ shapeCasts_S400_S400x1 (ix2 p z))) (Ideal.ofBits .f32 0x2B8CBCCC#32) = _
  have hz : z.val = 0 := by omega
  rw [shapeCast_apply _ shapeCasts_S400_S400x1 (ix2 p z) (ix1 p) (by
    rw [Shape.rowMajor_val_one, Shape.rowMajor_val_two]
    show p.val = p.val * 1 + z.val
    omega)]
  refine congrArg (fun s => max (Ideal.sqrt s) (Ideal.ofBits .f32 0x2B8CBCCC#32)) ?_
  refine (Ideal.multiReduction_add_single (mulf (sAct (F := Ideal) v0 v2 v5 v9 v12 v14) (sAct (F := Ideal) v0 v2 v5 v9 v12 v14))
    0x00000000#32 reduces_S400x256_S400 (.inl rfl) rfl (ix1 p)).trans ?_
  unfold sqLen
  refine Finset.sum_congr rfl fun (j : Fin 256) _ => ?_
  have e : reduces_S400x256_S400.lift (ix1 p) j = ix2 p j := funext fun a => Fin.ext (by match a with | ⟨0, _⟩ => rfl | ⟨1, _⟩ => rfl)
  rw [e]
  show sAct (F := Ideal) v0 v2 v5 v9 v12 v14 (ix2 p j) * sAct (F := Ideal) v0 v2 v5 v9 v12 v14 (ix2 p j) = _
  rw [sAct_apply]

/-- THE SLAB: the body's stored value is the layer over the slab's 400 rows. -/
theorem pay_eq_layer : k0_pay1 (F := Ideal) v0 v2 v5 v9 v12 v14 = outArr (R := 400) v0 v2 v5 v9 v12 v14 := by
  funext i
  obtain ⟨p, q, rfl⟩ : ∃ (p : Fin 400) (q : Fin 256), i = ix2 p q := ⟨i 0, i 1, eq_ix2 i⟩
  rw [pay_eq_stages, outArr_ix2, divf_apply, sAct_apply]
  unfold out
  rw [broadcastTo_apply _ broadcasts_S400x1_S400x256 (ix2 p q) (ix2 p (0 : Fin 1)) (fun a => by
    match a with
    | ⟨0, _⟩ => show p.val = if (400 : Nat) = 1 then 0 else p.val; rw [if_neg (by decide)]
    | ⟨1, _⟩ => show 0 = if (1 : Nat) = 1 then 0 else q.val; rw [if_pos rfl]), sNorm_apply]

end AtIdeal

end Cert.KernelIdeal.Block

end
-- ==== Proof.KernelLayer.lean ====
/-
  The kernel's result array, at the ideal values, is the layer of `LayerSpec.lean` over all 10000 rows.

  The grid has 25 points; point `t` sees rows `400 t … 400 t + 399` of the adjacency as its slab, the whole feature
  array (cast to the narrower float format before the call: the identity on extended reals), the whole aggregation
  weight and the whole output weight, and writes rows `400 t … 400 t + 399` of the result. What it writes is the
  layer over its 400 rows (`KernelBlock.lean`), with the slab's own feature rows read out of the resident feature
  array at row offset `400 t` and the two halves of the output weight read at row offsets `0` and `256`. Row `p` of
  the slab's layer is row `400 t + p` of the whole layer, because a row of the layer reads the adjacency and the rows'
  own features on that row only (`out_congr_row`). The 25 slabs of 400 rows tile the 10000 rows, so the array ends
  holding the whole layer.
-/
import proofs.«139050_g76141180224220_cont_sun_c4_842_2_alg».proof.Proof.Gen.KernelIdeal.Value
import proofs.«139050_g76141180224220_cont_sun_c4_842_2_alg».proof.Proof.KernelBlock
import Idealize.ShloMosaic.Lib.Pipeline.Value
import Idealize.ShloMosaic.Lib.StableHlo.Run
import Idealize.ShloMosaic.Lib.Tactic

noncomputable section

namespace Cert.KernelIdeal.Layer

open Cert.KernelIdeal Cert.KernelIdeal.Gen Idealize.ShloMosaic Idealize.ShloMosaic.TcCoe Idealize.SL.Sem
open Idealize.ShloMosaic.ValueIdx
open Idealize.ShloMosaic.Pipeline (Dat)
open Cert.GraphLayer (Arr out outArr outArr_ix2 out_congr topRows botRows layer)

theorem hz : (![0, 0] : Fin 2 → Nat) = fun _ => 0 := funext fun a => by fin_cases a <;> rfl

/-! ## What one run of the body leaves in the output's staging buffer -/

section Piece
variable {F : FTy → Type} [FloatOps F]

/-- The body's one store covers the output block, so the block ends at the stored value: the body's arithmetic of
    the four staged inputs, the slab's own feature rows loaded from the resident features at the point's row offset,
    the weight's halves at row offsets 0 and 256. -/
theorem piece (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .f32) (harg3 : arg3.IsWhole) (arg4 : Memref sig .tc .vmem S512x256 .f32) (harg4 : arg4.IsWhole) (arg5 : Memref sig .tc .vmem S400x256 .f32) (harg5 : arg5.IsWhole)
    (x0 : Vec F S400x10000 .f32) (x1 : Vec F S10000x256 .bf16) (x2 : Vec F S256x256 .f32) (x3 : Vec F S512x256 .f32) :
    out0_A_4 c i arg1 harg1 arg2 harg2 arg3 harg3 arg4 harg4 arg5 harg5 x0 x1 x2 x3
      = k0_pay1 x0 x1 x2
          (View.ld x1 (Rect.unit (s := S10000x256) (k0_off1 i) S400x256.size (k0_off1_inb i)))
          (View.ld x3 (Rect.unit (s := S512x256) ![0, 0] S256x256.size inb_S512x256_S256x256_0_0))
          (View.ld x3 (Rect.unit (s := S512x256) ![256, 0] S256x256.size inb_S512x256_S256x256_256_0)) := by
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  rw [View.canon_unit_zero hz]
  simp only [View.readAt_eq_ld, harg1.read_unread, harg2.read_unread, harg3.read_unread, harg4.read_unread,
    View.ld_unit_zero (S := S400x10000) hz, View.ld_unit_zero (S := S10000x256) hz, View.ld_unit_zero (S := S256x256) hz]

end Piece

/-! ## The slabs, and the array they tile -/

section AtIdeal
variable (m : (ℓ : Loc nD τ sig) → Buf (Elt Ideal) ℓ) (ρ : Dev nD → PrngReg)

/-- The four arrays the windows stage, as the region finds them, at their literal types. -/
abbrev supA (c : Dev nD) : Arr 10000 10000 := V m c main_arg1
abbrev featA (c : Dev nD) : Arr 10000 256 := V m c main_v0
abbrev aggwA (c : Dev nD) : Arr 256 256 := V m c main_arg2
abbrev catwA (c : Dev nD) : Arr 512 256 := V m c main_arg3

/-- What the result array ends holding: the layer of the staged arrays. -/
def whole (c : Dev nD) : Arr 10000 256 := layer (featA m c) (supA m c) (aggwA m c) (catwA m c)

/-- The printed index maps, decided over the 25 grid points: the adjacency and the result move one slab per point,
    the other three windows stay at block (0, 0), and the point's grid coordinate is its number. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ (grid0.coords t 0).val = t.val :=
  (by decide +kernel : ∀ t : Fin grid0.N, _)

/-- Row `p` of slab `t` is row `400 t + p` of the array. -/
def row (t : Fin cfg0.N) (p : Fin 400) : Fin 10000 :=
  ⟨400 * t.val + p.val, by have := t.isLt; have hN : cfg0.N = 25 := N_0; have := p.isLt; omega⟩

/-- The adjacency's slab at point `t` holds rows `400 t …` of the adjacency. -/
theorem supBlk_apply (c : Dev nD) (t : Fin cfg0.N) (p : Fin 400) (n : Fin 10000) :
    (iblk m c 0 t : Arr 400 10000) (ix2 p n) = supA m c (ix2 (row t p) n) := by
  obtain ⟨e00, e01, -⟩ := idx_facts t
  show V m c main_arg1 (((cfg0.win 0).blk t).view.emb (ix2 p n)) = V m c main_arg1 (ix2 (row t p) n)
  refine congrArg (V m c main_arg1) (funext fun a => Fin.ext ?_)
  match a with
  | ⟨0, _⟩ => show win0_0.index t (0 : Fin 2) * 400 + 1 * p.val = 400 * t.val + p.val; omega
  | ⟨1, _⟩ => show win0_0.index t (1 : Fin 2) * 10000 + 1 * n.val = n.val; omega

/-- The feature window's one block is the whole feature array. -/
theorem featBlk_eq (c : Dev nD) (t : Fin cfg0.N) : (iblk m c 1 t : Arr 10000 256) = featA m c := by
  obtain ⟨-, -, e10, e11, -⟩ := idx_facts t
  funext y
  show V m c main_v0 (((cfg0.win 1).blk t).view.emb y) = V m c main_v0 y
  refine congrArg (V m c main_v0) (funext fun a => Fin.ext ?_)
  match a with
  | ⟨0, _⟩ => show win0_1.index t (0 : Fin 2) * 10000 + 1 * (y 0).val = (y 0).val; omega
  | ⟨1, _⟩ => show win0_1.index t (1 : Fin 2) * 256 + 1 * (y 1).val = (y 1).val; omega

/-- The aggregation weight's one block is the whole weight. -/
theorem aggwBlk_eq (c : Dev nD) (t : Fin cfg0.N) : (iblk m c 2 t : Arr 256 256) = aggwA m c := by
  obtain ⟨-, -, -, -, e20, e21, -⟩ := idx_facts t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 256 + 1 * (y 0).val = (y 0).val; omega
  | ⟨1, _⟩ => show win0_2.index t (1 : Fin 2) * 256 + 1 * (y 1).val = (y 1).val; omega

/-- The slab's own feature rows: the load from the resident features at row offset `400 t` reads rows `400 t …`. -/
theorem ownRows_apply (c : Dev nD) (t : Fin cfg0.N) (p : Fin 400) (k : Fin 256) :
    (View.ld (iblk m c 1 t) (Rect.unit (s := S10000x256) (k0_off1 (grid0.coords t)) S400x256.size (k0_off1_inb (grid0.coords t))) : Arr 400 256) (ix2 p k)
      = featA m c (ix2 (row t p) k) := by
  obtain ⟨-, -, e10, e11, -, -, -, -, -, -, eg⟩ := idx_facts t
  have eo : k0_off1 (grid0.coords t) = ![400 * (grid0.coords t 0).val, 0] := k0_off1_eq (grid0.coords t)
  show V m c main_v0 (((cfg0.win 1).blk t).view.emb ((Rect.unit (s := S10000x256) (k0_off1 (grid0.coords t)) S400x256.size (k0_off1_inb (grid0.coords t))).emb (ix2 p k))) = V m c main_v0 (ix2 (row t p) k)
  refine congrArg (V m c main_v0) (funext fun a => Fin.ext ?_)
  match a with
  | ⟨0, _⟩ =>
    show win0_1.index t (0 : Fin 2) * 10000 + 1 * (k0_off1 (grid0.coords t) 0 + 1 * p.val) = 400 * t.val + p.val
    have e0 : k0_off1 (grid0.coords t) 0 = 400 * (grid0.coords t 0).val := by rw [eo]; rfl
    omega
  | ⟨1, _⟩ =>
    show win0_1.index t (1 : Fin 2) * 256 + 1 * (k0_off1 (grid0.coords t) 1 + 1 * k.val) = k.val
    have e1 : k0_off1 (grid0.coords t) 1 = 0 := by rw [eo]; rfl
    omega

/-- The load of the output weight at row offset 0 reads its top half … -/
theorem topLoad_eq (c : Dev nD) (t : Fin cfg0.N) :
    (View.ld (iblk m c 3 t) (Rect.unit (s := S512x256) ![0, 0] S256x256.size inb_S512x256_S256x256_0_0) : Arr 256 256) = topRows (catwA m c) := by
  obtain ⟨-, -, -, -, -, -, e30, e31, -⟩ := idx_facts t
  funext y
  show V m c main_arg3 (((cfg0.win 3).blk t).view.emb ((Rect.unit (s := S512x256) ![0, 0] S256x256.size inb_S512x256_S256x256_0_0).emb y)) = V m c main_arg3 _
  refine congrArg (V m c main_arg3) (funext fun a => Fin.ext ?_)
  match a with
  | ⟨0, _⟩ => show win0_3.index t (0 : Fin 2) * 512 + 1 * (0 + 1 * (y 0).val) = (y 0).val; omega
  | ⟨1, _⟩ => show win0_3.index t (1 : Fin 2) * 256 + 1 * (0 + 1 * (y 1).val) = (y 1).val; omega

/-- … and the load at row offset 256 its bottom half. -/
theorem botLoad_eq (c : Dev nD) (t : Fin cfg0.N) :
    (View.ld (iblk m c 3 t) (Rect.unit (s := S512x256) ![256, 0] S256x256.size inb_S512x256_S256x256_256_0) : Arr 256 256) = botRows (catwA m c) := by
  obtain ⟨-, -, -, -, -, -, e30, e31, -⟩ := idx_facts t
  funext y
  show V m c main_arg3 (((cfg0.win 3).blk t).view.emb ((Rect.unit (s := S512x256) ![256, 0] S256x256.size inb_S512x256_S256x256_256_0).emb y)) = V m c main_arg3 _
  refine congrArg (V m c main_arg3) (funext fun a => Fin.ext ?_)
  match a with
  | ⟨0, _⟩ => show win0_3.index t (0 : Fin 2) * 512 + 1 * (256 + 1 * (y 0).val) = 256 + (y 0).val; omega
  | ⟨1, _⟩ => show win0_3.index t (1 : Fin 2) * 256 + 1 * (0 + 1 * (y 1).val) = (y 1).val; omega

/-- What point `t` leaves in the output's staging buffer is the layer over its slab. -/
theorem outsAt_eq (c : Dev nD) (t : Fin cfg0.N) :
    outsAt0 m c t = outArr (R := 400) (iblk m c 0 t) (iblk m c 1 t) (iblk m c 2 t)
      (View.ld (iblk m c 1 t) (Rect.unit (s := S10000x256) (k0_off1 (grid0.coords t)) S400x256.size (k0_off1_inb (grid0.coords t))))
      (View.ld (iblk m c 3 t) (Rect.unit (s := S512x256) ![0, 0] S256x256.size inb_S512x256_S256x256_0_0))
      (View.ld (iblk m c 3 t) (Rect.unit (s := S512x256) ![256, 0] S256x256.size inb_S512x256_S256x256_256_0)) :=
  (piece (F := Ideal) c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (iblk m c 3 t)).trans
    (Block.pay_eq_layer (iblk m c 0 t) (iblk m c 1 t) (iblk m c 2 t)
      (View.ld (iblk m c 1 t) (Rect.unit (s := S10000x256) (k0_off1 (grid0.coords t)) S400x256.size (k0_off1_inb (grid0.coords t))))
      (View.ld (iblk m c 3 t) (Rect.unit (s := S512x256) ![0, 0] S256x256.size inb_S512x256_S256x256_0_0))
      (View.ld (iblk m c 3 t) (Rect.unit (s := S512x256) ![256, 0] S256x256.size inb_S512x256_S256x256_256_0)))

/-- Row `p` of slab `t`'s layer is row `400 t + p` of the whole layer. -/
theorem slab_row (c : Dev nD) (t : Fin cfg0.N) (p : Fin 400) (q : Fin 256) :
    outsAt0 m c t (ix2 p q) = whole m c (ix2 (row t p) q) := by
  rw [outsAt_eq]
  unfold whole layer
  rw [outArr_ix2, outArr_ix2]
  exact out_congr _ _ _ _ _ _ _ _ _ _ _ _ p (row t p) (supBlk_apply m c t p) (featBlk_eq m c t) (aggwBlk_eq m c t)
    (ownRows_apply m c t p) (topLoad_eq m c t) (botLoad_eq m c t) q

/-- WHAT POINT `t` WRITES BACK is block `t` of the whole layer. -/
theorem flushed_eq (c : Dev nD) (t : Fin cfg0.N) :
    (dats m 0 c).flushed 4 t = ((cfg0.win 4).blk t).view.read (Elt Ideal) (whole m c) := by
  obtain ⟨-, -, -, -, -, -, -, -, e40, e41, -⟩ := idx_facts t
  rw [Value.flushed4]
  funext y
  obtain ⟨p, q, rfl⟩ : ∃ (p : Fin 400) (q : Fin 256), y = ix2 p q := ⟨y 0, y 1, eq_ix2 y⟩
  show outsAt0 m c t (ix2 p q) = whole m c (((cfg0.win 4).blk t).view.emb (ix2 p q))
  rw [slab_row]
  refine congrArg (whole m c) (funext fun a => Fin.ext ?_)
  match a with
  | ⟨0, _⟩ => show 400 * t.val + p.val = win0_4.index t (0 : Fin 2) * 400 + 1 * p.val; omega
  | ⟨1, _⟩ => show q.val = win0_4.index t (1 : Fin 2) * 256 + 1 * q.val; omega

/-- An index of the result array is in point `t`'s block iff each coordinate is in the block's range on its axis. -/
theorem mem_blk (t : Fin cfg0.N) (i : S10000x256.Idx) :
    i ∈ ((cfg0.win 4).blk t).view.set ↔ ∀ a : Fin 2, win0_4.index t a * S400x256.size a ≤ (i a).val ∧ (i a).val < win0_4.index t a * S400x256.size a + S400x256.size a := by
  show i ∈ ((View.whole main_v1).slice (win0_4.rect t)).set ↔ _
  rw [View.set_slice_whole, Rect.mem_set_unit]
  exact Iff.rfl

/-- THE ARRAY after the run: the 25 slabs of 400 rows tile it (row `r` is in slab `r / 400`), so it holds the layer. -/
theorem final (c : Dev nD) : (dats m 0 c).arrAt 4 cfg0.N = whole m c :=
  (dats m 0 c).arrAt_eq_of_cover 4 (whole m c) (fun t _ => flushed_eq m c t) fun i => by
    have hN : cfg0.N = 25 := N_0
    have hi0 : (i 0).val < 10000 := (i 0).isLt
    have hi1 : (i 1).val < 256 := (i 1).isLt
    refine ⟨⟨(i 0).val / 400, by omega⟩, flush0_4 _, ?_⟩
    obtain ⟨-, -, -, -, -, -, -, -, e40, e41, -⟩ := idx_facts ⟨(i 0).val / 400, by omega⟩
    rw [mem_blk]
    intro a
    match a with
    | ⟨0, _⟩ =>
      show win0_4.index ⟨(i 0).val / 400, _⟩ (0 : Fin 2) * 400 ≤ (i 0).val ∧ (i 0).val < win0_4.index ⟨(i 0).val / 400, _⟩ (0 : Fin 2) * 400 + 400
      rw [e40]; dsimp only; omega
    | ⟨1, _⟩ =>
      show win0_4.index ⟨(i 0).val / 400, _⟩ (1 : Fin 2) * 256 ≤ (i 1).val ∧ (i 1).val < win0_4.index ⟨(i 0).val / 400, _⟩ (1 : Fin 2) * 256 + 256
      rw [e41]; omega

/-- The features the region finds are the argument's: the cast to the narrower float format before the call is the
    identity on extended reals. -/
theorem featA_eq (c : Dev nD) : featA m c = (m ((c : Thread nD τ).loc main_arg0) : Arr 10000 256) := by
  have e : (V m c main_v0 : S10000x256.Idx → EReal)
      = truncf (F := Ideal) .bf16 (m ((c : Thread nD τ).loc main_arg0) : FVec Ideal S10000x256 .f32) bitsLt_bf16_f32 := by
    dsimp only [Gen.V, Gen.hostOps0]; after_results
  exact e

/-- So the result array is the layer of the four argument arrays as launched. -/
theorem whole_eq (c : Dev nD) : whole m c = layer (m ((c : Thread nD τ).loc main_arg0)) (m ((c : Thread nD τ).loc main_arg1))
    (m ((c : Thread nD τ).loc main_arg2)) (m ((c : Thread nD τ).loc main_arg3)) := by
  unfold whole
  rw [featA_eq]
  show layer _ (V m c main_arg1) (V m c main_arg2) (V m c main_arg3) = _
  rw [V_main_arg1, V_main_arg2, V_main_arg3]

/-- THE RUN, read: every weakly fair execution ends with the result array at the layer of the arguments, the
    arguments unchanged. -/
theorem run : θ_run defs (onTc (τ := τ) (main (F := Ideal))) ⟨m, fun _ => 0, ρ⟩ fun r => ∀ c : Dev nD,
      r.2.mem ((c : Thread nD τ).loc main_v1) = layer (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (whole_eq m c)), (h c).2⟩)
    (Value.run_blocks m ρ)

end AtIdeal

end Cert.KernelIdeal.Layer

end
-- ==== Proof.RefLayer.lean ====
/-
  The reference computes the layer of `LayerSpec.lean` over all 10000 rows.

  Its operations, read one at a time at an index: two matrix products (the neighbour aggregation, then the
  aggregation weight), the aggregated features laid beside the rows' own features along the feature axis, one
  product of that `10000 × 512` array with the whole `512 × 256` output weight, the rectifier, the row sum of squares
  from a zero initial value, its square root kept above the floor, and the quotient. The product with the stacked
  weight is the layer's two-half form by splitting the sum over `Fin 512` (`lin_eq_stacked`); a zero initial value
  adds nothing.
-/
import proofs.«139050_g76141180224220_cont_sun_c4_842_2_alg».proof.Proof.Gen.ReferenceIdeal.Read
import proofs.«139050_g76141180224220_cont_sun_c4_842_2_alg».proof.Proof.LayerSpec
import Idealize.ShloMosaic.Lib.Pipeline.Value
import Idealize.ShloMosaic.Lib.ValueIdx
import Idealize.ShloMosaic.PureOps.Ideal.Laws

noncomputable section

namespace Cert.ReferenceIdeal.Layer

open Cert.ReferenceIdeal Cert.ReferenceIdeal.Gen Cert.ReferenceIdeal.Read Idealize.ShloMosaic Idealize.ShloMosaic.ValueIdx
open Cert.GraphLayer (Arr agg proj lin act sqLen out outArr topRows botRows lin_eq_stacked outArr_ix2 layer)

variable (x0 : (⟨S10000x256, .f32⟩ : BufTy).Contents (Elt Ideal)) (x1 : (⟨S10000x10000, .f32⟩ : BufTy).Contents (Elt Ideal))
  (x2 : (⟨S256x256, .f32⟩ : BufTy).Contents (Elt Ideal)) (x3 : (⟨S512x256, .f32⟩ : BufTy).Contents (Elt Ideal))

/-- The first product is the neighbour aggregation. -/
theorem ref_agg (r : Fin 10000) (k : Fin 256) : val_main_v0 (F := Ideal) x0 x1 (ix2 r k) = agg x1 x0 r k := by
  rw [val_main_v0_apply]
  unfold agg
  refine Finset.sum_congr rfl fun n _ => ?_
  have e1 : lidx_main_v0 (ix2 r k) n = ix2 r n := funext fun a => Fin.ext (by match a with | ⟨0, _⟩ => rfl | ⟨1, _⟩ => rfl)
  have e2 : ridx_main_v0 (ix2 r k) n = ix2 n k := funext fun a => Fin.ext (by match a with | ⟨0, _⟩ => rfl | ⟨1, _⟩ => rfl)
  rw [e1, e2]

/-- The second is the projection through the aggregation weight. -/
theorem ref_proj (r : Fin 10000) (k : Fin 256) : val_main_v1 (F := Ideal) x0 x1 x2 (ix2 r k) = proj x1 x0 x2 r k := by
  rw [val_main_v1_apply]
  unfold proj
  refine Finset.sum_congr rfl fun k' _ => ?_
  have e1 : lidx_main_v1 (ix2 r k) k' = ix2 r k' := funext fun a => Fin.ext (by match a with | ⟨0, _⟩ => rfl | ⟨1, _⟩ => rfl)
  have e2 : ridx_main_v1 (ix2 r k) k' = ix2 k' k := funext fun a => Fin.ext (by match a with | ⟨0, _⟩ => rfl | ⟨1, _⟩ => rfl)
  rw [e1, e2, ref_agg]

/-- The first 256 columns of the joined array are the projected aggregate … -/
theorem ref_cat_left (r : Fin 10000) (k : Fin 256) :
    val_main_v2 (F := Ideal) x0 x1 x2 (ix2 r (Fin.castAdd 256 k : Fin 512)) = val_main_v1 (F := Ideal) x0 x1 x2 (ix2 r k) := by
  unfold val_main_v2
  exact concatenate_pair_apply_left (t := S10000x512) (s₁ := S10000x256) (s₂ := S10000x256) (1 : Fin 2) _ _
    concatenates_S10000x256_S10000x256_S10000x512_d1
    (ix2 r (Fin.castAdd 256 k : Fin 512) : S10000x512.Idx) rfl (ix2 r k : S10000x256.Idx)
    (fun b => by match b with | ⟨0, _⟩ => rfl | ⟨1, _⟩ => rfl)

/-- … and the last 256 the rows' own features. -/
theorem ref_cat_right (r : Fin 10000) (k : Fin 256) :
    val_main_v2 (F := Ideal) x0 x1 x2 (ix2 r (Fin.natAdd 256 k : Fin 512)) = x0 (ix2 r k) := by
  unfold val_main_v2
  exact concatenate_pair_apply_right (t := S10000x512) (s₁ := S10000x256) (s₂ := S10000x256) (1 : Fin 2) _ _
    concatenates_S10000x256_S10000x256_S10000x512_d1
    (ix2 r (Fin.natAdd 256 k : Fin 512) : S10000x512.Idx) rfl rfl (ix2 r k : S10000x256.Idx)
    (fun b hb => by match b with | ⟨0, _⟩ => rfl | ⟨1, _⟩ => exact absurd rfl hb)
    (by show k.val + 256 = 256 + k.val; omega)

/-- The product of the joined array with the whole output weight is the layer's linear part. -/
theorem ref_lin (r : Fin 10000) (j : Fin 256) :
    val_main_v3 (F := Ideal) x0 x1 x2 x3 (ix2 r j) = lin x1 x0 x2 x0 (topRows x3) (botRows x3) r j := by
  rw [val_main_v3_apply]
  have e : ∀ k : Fin 512, (val_main_v2 (F := Ideal) x0 x1 x2) (lidx_main_v3 (ix2 r j) k) * x3 (ridx_main_v3 (ix2 r j) k)
      = (fun k : Fin 512 => val_main_v2 (F := Ideal) x0 x1 x2 (ix2 r k)) k * x3 (ix2 k j) := by
    intro k
    have e1 : lidx_main_v3 (ix2 r j) k = ix2 r k := funext fun a => Fin.ext (by match a with | ⟨0, _⟩ => rfl | ⟨1, _⟩ => rfl)
    have e2 : ridx_main_v3 (ix2 r j) k = ix2 k j := funext fun a => Fin.ext (by match a with | ⟨0, _⟩ => rfl | ⟨1, _⟩ => rfl)
    rw [e1, e2]
  exact (Finset.sum_congr rfl fun k _ => e k).trans
    (lin_eq_stacked x1 x0 x2 x0 x3 (fun k : Fin 512 => val_main_v2 (F := Ideal) x0 x1 x2 (ix2 r k)) r j
      (fun k => (ref_cat_left x0 x1 x2 r k).trans (ref_proj x0 x1 x2 r k)) (fun k => ref_cat_right x0 x1 x2 r k))

/-- Rectified. -/
theorem ref_act (r : Fin 10000) (j : Fin 256) :
    val_main_v4 (F := Ideal) x0 x1 x2 x3 (ix2 r j) = act x1 x0 x2 x0 (topRows x3) (botRows x3) r j := by
  rw [val_main_v4_apply, ref_lin, val_main_call0_v0_apply, val_main_call0_cst_apply]
  rfl

/-- The row sum of squares from a zero initial value. -/
theorem ref_sq (r : Fin 10000) :
    val_main_v6 (F := Ideal) x0 x1 x2 x3 (ix1 r) = sqLen x1 x0 x2 x0 (topRows x3) (botRows x3) r := by
  rw [val_main_v6_apply, val_main_cst_apply]
  show Ideal.ofBits .f32 0x00000000#32 + _ = _
  rw [Ideal.ofBits_zero_f32, zero_add]
  unfold sqLen
  refine Finset.sum_congr rfl fun j _ => ?_
  have e : idx_main_v6 (ix1 r) j = ix2 r j := funext fun a => Fin.ext (by match a with | ⟨0, _⟩ => rfl | ⟨1, _⟩ => rfl)
  rw [e, val_main_v5_apply, ref_act]
  rfl

/-- The reference's result array is the layer over all 10000 rows: the adjacency, the features (also as the rows' own
    features), the aggregation weight, and the two halves of the output weight. -/
theorem ref_eq : val_main_v12 (F := Ideal) x0 x1 x2 x3 = layer x0 x1 x2 x3 := by
  unfold layer
  funext i
  obtain ⟨r, j, rfl⟩ : ∃ (r : Fin 10000) (j : Fin 256), i = ix2 r j := ⟨i 0, i 1, eq_ix2 i⟩
  have e : idx_main_v7 (idx_main_v11 (ix2 r j)) = ix1 r := funext fun a => Fin.ext (by match a with | ⟨0, _⟩ => rfl)
  rw [outArr_ix2, val_main_v12_apply, ref_act, val_main_v11_apply, val_main_v10_apply, val_main_v8_apply, val_main_v7_apply,
    e, ref_sq, val_main_v9_apply, val_main_cst_0_apply]
  rfl

end Cert.ReferenceIdeal.Layer

end
-- ==== Proof.lean ====
/-
  A fused graph-convolution layer against its plain reference, over the extended reals.

  Both programs compute, for 10000 nodes with 256 features, a dense adjacency `sup`, an aggregation weight and a
  stacked `512 × 256` output weight,

      out = normalise_rows (relu (concat (sup · feat · aggw, feat) · catw)),

  each row divided by its Euclidean length kept above a small floor. The reference does it in whole-array steps. The
  kernel walks 25 slabs of 400 destination rows; on each it forms the slab's aggregate by one large product, and
  replaces the product with the stacked weight by the sum of two products with the weight's halves,
  `concat(a, f) · catw = a · catw[0:256] + f · catw[256:512]`, the slab's own feature rows `f` read out of the
  resident feature array.

  At the ideal values the two are one function of the arguments (`LayerSpec.lean`'s `layer`):
    * the kernel's changes of float format are the identity;
    * a matrix product into a zero accumulator, and the reference's contraction, are the same plain sum;
    * the stacked product is the two-half sum by splitting a sum over 512 indices into its halves — valid in any
      additive commutative monoid, so no finiteness of the inputs is used anywhere;
    * the rectifier, the row sum of squares (a zero initial value adds nothing), the square root, the floor and the
      quotient are the same operations on both sides, with the same two float words;
    * a row of the layer reads the adjacency and the rows' own features on that row only, so the slabs' results are
      the rows of the whole layer, and the 25 slabs tile the 10000 rows.

  `KernelBlock.lean` reads the kernel body on one slab, `KernelLayer.lean` assembles the slabs into the result array,
  `RefLayer.lean` reads the reference; the frames are the generated ones, and the idealization rewrote nothing.
-/
import proofs.«139050_g76141180224220_cont_sun_c4_842_2_alg».proof.Defs
import proofs.«139050_g76141180224220_cont_sun_c4_842_2_alg».proof.Proof.Gen.Kernel
import proofs.«139050_g76141180224220_cont_sun_c4_842_2_alg».proof.Proof.Gen.Kernel.Skeleton
import proofs.«139050_g76141180224220_cont_sun_c4_842_2_alg».proof.Proof.Gen.Kernel.Launch
import proofs.«139050_g76141180224220_cont_sun_c4_842_2_alg».proof.Proof.Gen.Kernel.Points
import proofs.«139050_g76141180224220_cont_sun_c4_842_2_alg».proof.Proof.Gen.Kernel.Frame
import proofs.«139050_g76141180224220_cont_sun_c4_842_2_alg».proof.Proof.Gen.KernelIdeal
import proofs.«139050_g76141180224220_cont_sun_c4_842_2_alg».proof.Proof.Gen.KernelIdeal.Skeleton
import proofs.«139050_g76141180224220_cont_sun_c4_842_2_alg».proof.Proof.Gen.KernelIdeal.Launch
import proofs.«139050_g76141180224220_cont_sun_c4_842_2_alg».proof.Proof.Gen.KernelIdeal.Points
import proofs.«139050_g76141180224220_cont_sun_c4_842_2_alg».proof.Proof.Gen.KernelIdeal.Frame
import proofs.«139050_g76141180224220_cont_sun_c4_842_2_alg».proof.Proof.Gen.ReferenceIdeal
import proofs.«139050_g76141180224220_cont_sun_c4_842_2_alg».proof.Proof.Gen.Pre_finite_inputs
import proofs.«139050_g76141180224220_cont_sun_c4_842_2_alg».proof.Proof.Gen.KernelIdeal.Value
import proofs.«139050_g76141180224220_cont_sun_c4_842_2_alg».proof.Proof.Gen.ReferenceIdeal.Run
import proofs.«139050_g76141180224220_cont_sun_c4_842_2_alg».proof.Proof.Gen.ReferenceIdeal.Read
import proofs.«139050_g76141180224220_cont_sun_c4_842_2_alg».proof.Proof.KernelLayer
import proofs.«139050_g76141180224220_cont_sun_c4_842_2_alg».proof.Proof.RefLayer
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the layer of the (agreeing) arguments. -/
theorem algebraic : Cert.algebraic_KernelIdeal_ReferenceIdeal := by
  intro m ρ m' ρ' _ hagree
  refine ⟨fun c => Cert.GraphLayer.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Layer.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
